-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S128x1024 .f32) (main_arg1 : FVec F S512x1024 .f32) (main_arg2 : FVec F S3072x1024 .f32) (main_arg3 : FVec F S1024 .f32) (main_arg4 : FVec F S1024x512 .f32) (main_arg5 : FVec F S512 .f32) (main_arg6 : FVec F S512x1 .f32) (main_arg7 : FVec F S1 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1024x1024 : Shape := ⟨2, ![1024, 1024]⟩
abbrev S1x1024 : Shape := ⟨2, ![1, 1024]⟩
abbrev S1x512 : Shape := ⟨2, ![1, 512]⟩
abbrev S1x1 : Shape := ⟨2, ![1, 1]⟩
abbrev S128x512 : Shape := ⟨2, ![128, 512]⟩
abbrev S16x1024 : Shape := ⟨2, ![16, 1024]⟩
abbrev S16x128 : Shape := ⟨2, ![16, 128]⟩
abbrev S16x1x1024 : Shape := ⟨3, ![16, 1, 1024]⟩
abbrev S1x128x1024 : Shape := ⟨3, ![1, 128, 1024]⟩
abbrev S16x128x1024 : Shape := ⟨3, ![16, 128, 1024]⟩
abbrev S2048x1024 : Shape := ⟨2, ![2048, 1024]⟩
abbrev S1x1x1024 : Shape := ⟨3, ![1, 1, 1024]⟩
abbrev S2048x512 : Shape := ⟨2, ![2048, 512]⟩
abbrev S2048x1 : Shape := ⟨2, ![2048, 1]⟩
abbrev S128x512x1 : Shape := ⟨3, ![128, 512, 1]⟩

abbrev nBuf : Space → Nat
  | .hbm => 23
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S3072x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x1024, .bf16⟩
  | .hbm, ⟨9, _⟩ => ⟨S512x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x512, .bf16⟩
  | .hbm, ⟨17, _⟩ => ⟨S512x1, .bf16⟩
  | .hbm, ⟨18, _⟩ => ⟨S1x1024, .f32⟩
  | .hbm, ⟨19, _⟩ => ⟨S1x512, .f32⟩
  | .hbm, ⟨20, _⟩ => ⟨S1x1, .f32⟩
  | .hbm, ⟨21, _⟩ => ⟨S128x512, .f32⟩
  | .hbm, ⟨22, _⟩ => ⟨S128x512x1, .f32⟩
  | .local _ .vmem, ⟨0, _⟩ => ⟨S16x1024, .bf16⟩
  | .local _ .vmem, ⟨1, _⟩ => ⟨S16x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S512x1, .bf16⟩
  | .local _ .vmem, ⟨11, _⟩ => ⟨S1x1, .f32⟩
  | .local _ .vmem, ⟨12, _⟩ => ⟨S16x128, .f32⟩
  | .local _ .vmem, ⟨13, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  shapeCasts_S1024_S1x1024 : S1024.ShapeCasts S1x1024
  shapeCasts_S512_S1x512 : S512.ShapeCasts S1x512
  shapeCasts_S1_S1x1 : S1.ShapeCasts S1x1
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024 : S1x1024.ShapeCasts S1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S512 : S1x512.ShapeCasts S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1 : S1x1.ShapeCasts S1
  shapeCasts_S16x1024_S16x1x1024 : S16x1024.ShapeCasts S16x1x1024
  shapeCasts_S128x1024_S1x128x1024 : S128x1024.ShapeCasts S1x128x1024
  broadcasts_S16x1x1024_S16x128x1024 : S16x1x1024.Broadcasts S16x128x1024
  broadcasts_S1x128x1024_S16x128x1024 : S1x128x1024.Broadcasts S16x128x1024
  shapeCasts_S16x128x1024_S2048x1024 : S16x128x1024.ShapeCasts S2048x1024
  shapeCasts_S2048x1024_S16x128x1024 : S2048x1024.ShapeCasts S16x128x1024
  shapeCasts_S1024_S1x1x1024 : S1024.ShapeCasts S1x1x1024
  broadcasts_S1x1x1024_S16x128x1024 : S1x1x1024.Broadcasts S16x128x1024
  broadcasts_S1x512_S2048x512 : S1x512.Broadcasts S2048x512
  broadcasts_S1x1_S2048x1 : S1x1.Broadcasts S2048x1
  shapeCasts_S2048x1_S16x128 : S2048x1.ShapeCasts S16x128
  inb_S16x128_S16x128_0_0 : ∀ a, (![0, 0] : Fin 2 → Nat) a + S16x128.size a ≤ S16x128.size a
  h_S16x128 : 0 < S16x128.numel
  bcast_S128x512_S128x512x1_0_1 : S128x512.BroadcastsInDim S128x512x1 (![0, 1] : Fin 2 → Fin S128x512x1.rank)
  dot_S2048x1024_S1024x1024_S2048x1024_1_0_0_1_n_n_wf : DotDims.WF S2048x1024 S1024x1024 S2048x1024 [1] [0] [0] [1] [] []
  dot_S16x1024_S1024x1024_S16x1024_1_0_0_1_n_n_wf : DotDims.WF S16x1024 S1024x1024 S16x1024 [1] [0] [0] [1] [] []
  dot_S128x1024_S1024x1024_S128x1024_1_0_0_1_n_n_wf : DotDims.WF S128x1024 S1024x1024 S128x1024 [1] [0] [0] [1] [] []
  dot_S2048x1024_S1024x512_S2048x512_1_0_0_1_n_n_wf : DotDims.WF S2048x1024 S1024x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S128x1024.size a
  hwx0_0 : ∀ i : grid0.Coords, EltTy.bits .bf16 = 32 ∨ (Rect.block (s := S128x1024) S16x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x1024.size a
  hwx0_1 : ∀ i : grid0.Coords, EltTy.bits .bf16 = 32 ∨ (Rect.block (s := S512x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .bf16 = 32 ∨ (Rect.block (s := S512x1) S512x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S128x512.size a
  hwx0_10 : ∀ i : grid0.Coords, EltTy.bits .f32 = 32 ∨ (Rect.block (s := S128x512) S16x128.size (cc0_transform_10 i) (hinb0_10 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S16x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x1024 : Shape := ⟨2, ![128, 1024]⟩
abbrev S512x1024 : Shape := ⟨2, ![512, 1024]⟩
abbrev S3072x1024 : Shape := ⟨2, ![3072, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S128x1x1024 : Shape := ⟨3, ![128, 1, 1024]⟩
abbrev S1x512x1024 : Shape := ⟨3, ![1, 512, 1024]⟩
abbrev S128x512x1024 : Shape := ⟨3, ![128, 512, 1024]⟩
abbrev S128x512x3072 : Shape := ⟨3, ![128, 512, 3072]⟩
abbrev S1x1x1024 : Shape := ⟨3, ![1, 1, 1024]⟩
abbrev S_ : Shape := ⟨0, ![]⟩
abbrev S128x512x512 : Shape := ⟨3, ![128, 512, 512]⟩
abbrev S1x1x512 : Shape := ⟨3, ![1, 1, 512]⟩
abbrev S128x512x1 : Shape := ⟨3, ![128, 512, 1]⟩
abbrev S1x1x1 : Shape := ⟨3, ![1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S3072x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x1x1024, .f32⟩
  | .hbm, ⟨9, _⟩ => ⟨S1x512x1024, .f32⟩
  | .hbm, ⟨10, _⟩ => ⟨S128x512x1024, .f32⟩
  | .hbm, ⟨11, _⟩ => ⟨S128x512x1024, .f32⟩
  | .hbm, ⟨12, _⟩ => ⟨S128x512x1024, .f32⟩
  | .hbm, ⟨13, _⟩ => ⟨S128x512x1024, .f32⟩
  | .hbm, ⟨14, _⟩ => ⟨S128x512x1024, .f32⟩
  | .hbm, ⟨15, _⟩ => ⟨S128x512x3072, .f32⟩
  | .hbm, ⟨16, _⟩ => ⟨S128x512x1024, .f32⟩
  | .hbm, ⟨17, _⟩ => ⟨S1x1x1024, .f32⟩
  | .hbm, ⟨18, _⟩ => ⟨S128x512x1024, .f32⟩
  | .hbm, ⟨19, _⟩ => ⟨S128x512x1024, .f32⟩
  | .hbm, ⟨20, _⟩ => ⟨S_, .f32⟩
  | .hbm, ⟨21, _⟩ => ⟨S128x512x1024, .f32⟩
  | .hbm, ⟨22, _⟩ => ⟨S128x512x1024, .f32⟩
  | .hbm, ⟨23, _⟩ => ⟨S128x512x512, .f32⟩
  | .hbm, ⟨24, _⟩ => ⟨S1x1x512, .f32⟩
  | .hbm, ⟨25, _⟩ => ⟨S128x512x512, .f32⟩
  | .hbm, ⟨26, _⟩ => ⟨S128x512x512, .f32⟩
  | .hbm, ⟨27, _⟩ => ⟨S_, .f32⟩
  | .hbm, ⟨28, _⟩ => ⟨S128x512x512, .f32⟩
  | .hbm, ⟨29, _⟩ => ⟨S128x512x512, .f32⟩
  | .hbm, ⟨30, _⟩ => ⟨S128x512x1, .f32⟩
  | .hbm, ⟨31, _⟩ => ⟨S1x1x1, .f32⟩
  | .hbm, ⟨32, _⟩ => ⟨S128x512x1, .f32⟩
  | .hbm, ⟨33, _⟩ => ⟨S128x512x1, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  concatenates_S128x512x1024_S128x512x1024_S128x512x1024_S128x512x3072_d2 : Shape.Concatenates [S128x512x1024, S128x512x1024, S128x512x1024] S128x512x3072 2
  bcast_S1024_S1x1x1024_2 : S1024.BroadcastsInDim S1x1x1024 (![2] : Fin 1 → Fin S1x1x1024.rank)
  bcast_S1x1x1024_S128x512x1024_0_1_2 : S1x1x1024.BroadcastsInDim S128x512x1024 (![0, 1, 2] : Fin 3 → Fin S128x512x1024.rank)
  bcast_S_S128x512x1024 : S_.BroadcastsInDim S128x512x1024 (![] : Fin 0 → Fin S128x512x1024.rank)
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  bcast_S_S128x512x512 : S_.BroadcastsInDim S128x512x512 (![] : Fin 0 → Fin S128x512x512.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  dot_S128x512x3072_S3072x1024_S128x512x1024_2_0_01_1_n_n_wf : DotDims.WF S128x512x3072 S3072x1024 S128x512x1024 [2] [0] [0, 1] [1] [] []
  dot_S128x512x1024_S1024x512_S128x512x512_2_0_01_1_n_n_wf : DotDims.WF S128x512x1024 S1024x512 S128x512x512 [2] [0] [0, 1] [1] [] []
  dot_S128x512x512_S512x1_S128x512x1_2_0_01_1_n_n_wf : DotDims.WF S128x512x512 S512x1 S128x512x1 [2] [0] [0, 1] [1] [] []

variable [Facts₀]

def dot_S128x512x3072_S3072x1024_S128x512x1024_2_0_01_1_n_n : DotDims S128x512x3072 S3072x1024 S128x512x1024 where
  lhsContracting := [2]
  rhsContracting := [0]
  lhsNonContracting := [0, 1]
  rhsNonContracting := [1]
  lhsBatch := []
  rhsBatch := []
  wf := dot_S128x512x3072_S3072x1024_S128x512x1024_2_0_01_1_n_n_wf
def dot_S128x512x1024_S1024x512_S128x512x512_2_0_01_1_n_n : DotDims S128x512x1024 S1024x512 S128x512x512 where
  lhsContracting := [2]
  rhsContracting := [0]
  lhsNonContracting := [0, 1]
  rhsNonContracting := [1]
  lhsBatch := []
  rhsBatch := []
  wf := dot_S128x512x1024_S1024x512_S128x512x512_2_0_01_1_n_n_wf
def dot_S128x512x512_S512x1_S128x512x1_2_0_01_1_n_n : DotDims S128x512x512 S512x1 S128x512x1 where
  lhsContracting := [2]
  rhsContracting := [0]
  lhsNonContracting := [0, 1]
  rhsNonContracting := [1]
  lhsBatch := []
  rhsBatch := []
  wf := dot_S128x512x512_S512x1_S128x512x1_2_0_01_1_n_n_wf

class Facts : Prop extends Facts₀ where

variable [Facts]
-- ==== Proof.Spec.lean ====
/-
  The function both programs compute, stated once over the extended reals.

  For a goal row `g`, a theorem row `t` (each of 1024 entries) the network's input is the row
  `[g | t | g * t]` of 3072 entries; three affine layers follow, the first two rectified:
    h1[h] = max (sum_{k < 3072} [g | t | g * t][k] * W1[k, h] + b1[h]) 0        (h < 1024)
    h2[j] = max (sum_{h < 1024} h1[h] * W2[h, j] + b2[j]) 0                     (j < 512)
    out   =      sum_{j < 512}  h2[j] * W3[j, 0] + b3[0]
  The sum over the 3072 joined entries is the sum of three sums of 1024 terms, one per part of the
  row, and the first layer is written below in that split form: the product part first, then the
  goal part, then the theorem part, then the bias. Only commutativity and associativity of the sum
  are used to pass from the joined form to the split one, so no entry has to be finite.
-/
import Idealize.ShloMosaic.PureOps.Ideal
import Idealize.ShloMosaic.Lib.ValueIdx

noncomputable section

open scoped BigOperators

namespace Cert.PairMlp

open Idealize.ShloMosaic Idealize.ShloMosaic.ValueIdx

/-! ## One pair's layers, as functions of rows and columns -/

/-- A first-layer unit of one (goal, theorem) pair, in split form: `g`, `t` the two rows, `wg`, `wt`, `wm` the
    unit's column of `W1` cut into the parts that meet `g`, `t` and `g * t`, `b` its bias. -/
def hid1 (g t wg wt wm : Fin 1024 → EReal) (b : EReal) : EReal :=
  max ((((∑ e, (g e * t e) * wm e) + ∑ e, g e * wg e) + ∑ e, t e * wt e) + b) 0

/-- A second-layer unit: the rectified affine image of the first layer's 1024 units. -/
def hid2 (h w : Fin 1024 → EReal) (b : EReal) : EReal :=
  max ((∑ j, h j * w j) + b) 0

/-- The output: the affine image of the second layer's 512 units. -/
def logit (h w : Fin 512 → EReal) (b : EReal) : EReal :=
  (∑ k, h k * w k) + b

/-! ## A sum over 3072 joined entries is three sums over 1024 -/

/-- Entry `e` of the first part of a joined row. -/
abbrev lo (e : Fin 1024) : Fin 3072 := ⟨e.val, by omega⟩
/-- Entry `e` of the second part. -/
abbrev mid (e : Fin 1024) : Fin 3072 := ⟨1024 + e.val, by omega⟩
/-- Entry `e` of the third part. -/
abbrev hi (e : Fin 1024) : Fin 3072 := ⟨2048 + e.val, by omega⟩

theorem sum_three (f : Fin 3072 → EReal) :
    ∑ k, f k = ((∑ e, f (lo e)) + ∑ e, f (mid e)) + ∑ e, f (hi e) := by
  have h1 := Fin.sum_univ_add (M := EReal) (a := 1024) (b := 2048) f
  have h2 := Fin.sum_univ_add (M := EReal) (a := 1024) (b := 1024) (fun i => f (Fin.natAdd 1024 i))
  have e3 : ∀ e : Fin 1024, f (Fin.natAdd 1024 (Fin.natAdd 1024 e)) = f (hi e) := fun e =>
    congrArg f (Fin.ext (by show 1024 + (1024 + e.val) = 2048 + e.val; omega))
  rw [h1, h2, add_assoc]
  exact congrArg₂ (· + ·) rfl (congrArg₂ (· + ·) rfl (Finset.sum_congr rfl fun e _ => e3 e))

/-- The first layer in joined form is the split form: `c` the joined row, `w` the unit's whole column of `W1`. -/
theorem hid1_of_joined (c w : Fin 3072 → EReal) (g t wg wt wm : Fin 1024 → EReal) (b : EReal)
    (c0 : ∀ e, c (lo e) = g e) (c1 : ∀ e, c (mid e) = t e) (c2 : ∀ e, c (hi e) = g e * t e)
    (w0 : ∀ e, w (lo e) = wg e) (w1 : ∀ e, w (mid e) = wt e) (w2 : ∀ e, w (hi e) = wm e) :
    max ((∑ k, c k * w k) + b) 0 = hid1 g t wg wt wm b := by
  unfold hid1
  rw [sum_three]
  simp only [c0, c1, c2, w0, w1, w2]
  rw [add_comm ((∑ e, g e * wg e) + ∑ e, t e * wt e) (∑ e, g e * t e * wm e),
    ← add_assoc (∑ e, g e * t e * wm e)]

/-! ## The whole arrays -/

section Arrays

variable (G : (⟨2, ![128, 1024]⟩ : Shape).Idx → EReal) (T : (⟨2, ![512, 1024]⟩ : Shape).Idx → EReal)
  (W1 : (⟨2, ![3072, 1024]⟩ : Shape).Idx → EReal) (B1 : (⟨1, ![1024]⟩ : Shape).Idx → EReal)
  (W2 : (⟨2, ![1024, 512]⟩ : Shape).Idx → EReal) (B2 : (⟨1, ![512]⟩ : Shape).Idx → EReal)
  (W3 : (⟨2, ![512, 1]⟩ : Shape).Idx → EReal) (B3 : (⟨1, ![1]⟩ : Shape).Idx → EReal)

/-- First-layer unit `h` of the pair (goal `n`, theorem `p`). -/
def layer1 (n : Fin 128) (p : Fin 512) (h : Fin 1024) : EReal :=
  hid1 (fun e => G (ix2 n e)) (fun e => T (ix2 p e))
    (fun e => W1 (ix2 (lo e) h)) (fun e => W1 (ix2 (mid e) h)) (fun e => W1 (ix2 (hi e) h)) (B1 (ix1 h))

/-- Second-layer unit `j` of the pair. -/
def layer2 (n : Fin 128) (p : Fin 512) (j : Fin 512) : EReal :=
  hid2 (fun h => layer1 G T W1 B1 n p h) (fun h => W2 (ix2 h j)) (B2 (ix1 j))

/-- The pair's output. -/
def score (n : Fin 128) (p : Fin 512) (o : Fin 1) : EReal :=
  logit (fun j => layer2 G T W1 B1 W2 B2 n p j) (fun j => W3 (ix2 j o)) (B3 (ix1 o))

/-- The result array [128, 512, 1]: entry (n, p, 0) is the output of the pair (goal n, theorem p). -/
def result : (⟨3, ![128, 512, 1]⟩ : Shape).Idx → EReal :=
  fun i => score G T W1 B1 W2 B2 W3 B3 (i 0) (i 1) (i 2)

/-- The same values laid out as the kernel's output array [128, 512]. -/
def table : (⟨2, ![128, 512]⟩ : Shape).Idx → EReal :=
  fun i => score G T W1 B1 W2 B2 W3 B3 (i 0) (i 1) 0

end Arrays

end Cert.PairMlp

end
-- ==== Proof.Payload.lean ====
/-
  What the kernel's body stores at entry (p, q) of its [16, 128] output block, as the pair network of Spec.lean
  applied to row p of the goal block, row q of the theorem block and the resident weights and biases.
-/
import proofs.«123708_j12000138625194_1_alg».proof.Proof.Gen.KernelIdeal.Skeleton
import proofs.«123708_j12000138625194_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ### The product of a [16, 1024] array and a [1024, 1024] array, read at (r, c) -/

private theorem lhs_goal_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
private theorem lhs_goal_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
private theorem rhs_goal_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
private theorem rhs_goal_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

/-- Into a zero accumulator the product at (r, c) is the sum over the shared axis of row r times column c. -/
private theorem mm_goal (a : FVec Ideal S16x1024 .bf16) (b : FVec Ideal S1024x1024 .bf16) (r : Fin 16) (c : Fin 1024) :
    matmul dot_S16x1024_S1024x1024_S16x1024_1_0_0_1_n_n none a b (constant (F := Ideal) S16x1024 .f32 0x00000000#32) (ix2 r c)
      = ∑ k : Fin 1024, a (ix2 r k) * b (ix2 k c) := by
  simp only [matmul]
  rw [Ideal.matmul_constant_zero_apply, ← Equiv.sum_comp (contrEquiv1 dot_S16x1024_S1024x1024_S16x1024_1_0_0_1_n_n 1024 rfl rfl).symm]
  refine Finset.sum_congr rfl fun k _ => ?_
  have hk := contrEquiv1_symm_val dot_S16x1024_S1024x1024_S16x1024_1_0_0_1_n_n 1024 rfl rfl k
  have el : dot_S16x1024_S1024x1024_S16x1024_1_0_0_1_n_n.lhsIdx (ix2 r c) ((contrEquiv1 dot_S16x1024_S1024x1024_S16x1024_1_0_0_1_n_n 1024 rfl rfl).symm k) = ix2 r k := funext fun x => Fin.ext (by
    match x with
    | ⟨0, _⟩ => exact lhs_goal_0 _ _
    | ⟨1, _⟩ => exact (lhs_goal_1 _ _).trans hk)
  have er : dot_S16x1024_S1024x1024_S16x1024_1_0_0_1_n_n.rhsIdx (ix2 r c) ((contrEquiv1 dot_S16x1024_S1024x1024_S16x1024_1_0_0_1_n_n 1024 rfl rfl).symm k) = ix2 k c := funext fun x => Fin.ext (by
    match x with
    | ⟨0, _⟩ => exact (rhs_goal_0 _ _).trans hk
    | ⟨1, _⟩ => exact rhs_goal_1 _ _)
  rw [el, er]

/-! ### The product of a [128, 1024] array and a [1024, 1024] array, read at (r, c) -/

private theorem lhs_thm_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
private theorem lhs_thm_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
private theorem rhs_thm_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
private theorem rhs_thm_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Into a zero accumulator the product at (r, c) is the sum over the shared axis of row r times column c. -/
private theorem mm_thm (a : FVec Ideal S128x1024 .bf16) (b : FVec Ideal S1024x1024 .bf16) (r : Fin 128) (c : Fin 1024) :
    matmul dot_S128x1024_S1024x1024_S128x1024_1_0_0_1_n_n none a b (constant (F := Ideal) S128x1024 .f32 0x00000000#32) (ix2 r c)
      = ∑ k : Fin 1024, a (ix2 r k) * b (ix2 k c) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r c) ((contrEquiv1 dot_S128x1024_S1024x1024_S128x1024_1_0_0_1_n_n 1024 rfl rfl).symm k) = ix2 r k := funext fun x => Fin.ext (by
    match x with
    | ⟨0, _⟩ => exact lhs_thm_0 _ _
    | ⟨1, _⟩ => exact (lhs_thm_1 _ _).trans hk)
  have er : dot_S128x1024_S1024x1024_S128x1024_1_0_0_1_n_n.rhsIdx (ix2 r c) ((contrEquiv1 dot_S128x1024_S1024x1024_S128x1024_1_0_0_1_n_n 1024 rfl rfl).symm k) = ix2 k c := funext fun x => Fin.ext (by
    match x with
    | ⟨0, _⟩ => exact (rhs_thm_0 _ _).trans hk
    | ⟨1, _⟩ => exact rhs_thm_1 _ _)
  rw [el, er]

/-! ### The product of a [2048, 1024] array and a [1024, 1024] array, read at (r, c) -/

private theorem lhs_pair_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
private theorem lhs_pair_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
private theorem rhs_pair_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
private theorem rhs_pair_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- Into a zero accumulator the product at (r, c) is the sum over the shared axis of row r times column c. -/
private theorem mm_pair (a : FVec Ideal S2048x1024 .bf16) (b : FVec Ideal S1024x1024 .bf16) (r : Fin 2048) (c : Fin 1024) :
    matmul dot_S2048x1024_S1024x1024_S2048x1024_1_0_0_1_n_n none a b (constant (F := Ideal) S2048x1024 .f32 0x00000000#32) (ix2 r c)
      = ∑ k : Fin 1024, a (ix2 r k) * b (ix2 k c) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun x => Fin.ext (by
    match x with
    | ⟨0, _⟩ => exact lhs_pair_0 _ _
    | ⟨1, _⟩ => exact (lhs_pair_1 _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun x => Fin.ext (by
    match x with
    | ⟨0, _⟩ => exact (rhs_pair_0 _ _).trans hk
    | ⟨1, _⟩ => exact rhs_pair_1 _ _)
  rw [el, er]

/-! ### The product of a [2048, 1024] array and a [1024, 512] array, read at (r, c) -/

private theorem lhs_second_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
private theorem lhs_second_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
private theorem rhs_second_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
private theorem rhs_second_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- Into a zero accumulator the product at (r, c) is the sum over the shared axis of row r times column c. -/
private theorem mm_second (a : FVec Ideal S2048x1024 .bf16) (b : FVec Ideal S1024x512 .bf16) (r : Fin 2048) (c : Fin 512) :
    matmul dot_S2048x1024_S1024x512_S2048x512_1_0_0_1_n_n none a b (constant (F := Ideal) S2048x512 .f32 0x00000000#32) (ix2 r c)
      = ∑ k : Fin 1024, a (ix2 r k) * b (ix2 k c) := by
  simp only [matmul]
  rw [Ideal.matmul_constant_zero_apply, ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 r c) ((contrEquiv1 dot_S2048x1024_S1024x512_S2048x512_1_0_0_1_n_n 1024 rfl rfl).symm k) = ix2 r k := funext fun x => Fin.ext (by
    match x with
    | ⟨0, _⟩ => exact lhs_second_0 _ _
    | ⟨1, _⟩ => exact (lhs_second_1 _ _).trans hk)
  have er : dot_S2048x1024_S1024x512_S2048x512_1_0_0_1_n_n.rhsIdx (ix2 r c) ((contrEquiv1 dot_S2048x1024_S1024x512_S2048x512_1_0_0_1_n_n 1024 rfl rfl).symm k) = ix2 k c := funext fun x => Fin.ext (by
    match x with
    | ⟨0, _⟩ => exact (rhs_second_0 _ _).trans hk
    | ⟨1, _⟩ => exact rhs_second_1 _ _)
  rw [el, er]

/-! ### The product of a [2048, 512] array and a [512, 1] array, read at (r, c) -/

private theorem lhs_last_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
private theorem lhs_last_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
private theorem rhs_last_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
private theorem rhs_last_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- Into a zero accumulator the product at (r, c) is the sum over the shared axis of row r times column c. -/
private theorem mm_last (a : FVec Ideal S2048x512 .bf16) (b : FVec Ideal S512x1 .bf16) (r : Fin 2048) (c : Fin 1) :
    matmul dot_S2048x512_S512x1_S2048x1_1_0_0_1_n_n none a b (constant (F := Ideal) S2048x1 .f32 0x00000000#32) (ix2 r c)
      = ∑ k : Fin 512, a (ix2 r k) * b (ix2 k c) := by
  simp only [matmul]
  rw [Ideal.matmul_constant_zero_apply, ← Equiv.sum_comp (contrEquiv1 dot_S2048x512_S512x1_S2048x1_1_0_0_1_n_n 512 rfl rfl).symm]
  refine Finset.sum_congr rfl fun k _ => ?_
  have hk := contrEquiv1_symm_val dot_S2048x512_S512x1_S2048x1_1_0_0_1_n_n 512 rfl rfl k
  have el : dot_S2048x512_S512x1_S2048x1_1_0_0_1_n_n.lhsIdx (ix2 r c) ((contrEquiv1 dot_S2048x512_S512x1_S2048x1_1_0_0_1_n_n 512 rfl rfl).symm k) = ix2 r k := funext fun x => Fin.ext (by
    match x with
    | ⟨0, _⟩ => exact lhs_last_0 _ _
    | ⟨1, _⟩ => exact (lhs_last_1 _ _).trans hk)
  have er : dot_S2048x512_S512x1_S2048x1_1_0_0_1_n_n.rhsIdx (ix2 r c) ((contrEquiv1 dot_S2048x512_S512x1_S2048x1_1_0_0_1_n_n 512 rfl rfl).symm k) = ix2 k c := funext fun x => Fin.ext (by
    match x with
    | ⟨0, _⟩ => exact (rhs_last_0 _ _).trans hk
    | ⟨1, _⟩ => exact rhs_last_1 _ _)
  rw [el, er]

/-! ### The layout operations of the body, each read at an index built from its coordinates -/

/-- Row `128 * p + q` of the [2048, ·] arrays: the pair (goal row p, theorem row q) of the block. -/
private abbrev row (p : Fin 16) (q : Fin 128) : Fin 2048 :=
  ⟨128 * p.val + q.val, by have := p.isLt; have := q.isLt; omega⟩

section Layout
variable {α : Type}

/-- [16, 1024] read as [16, 1, 1024]. -/
private theorem cast_goal3 (x : S16x1024.Idx → α) (p : Fin 16) (z : Fin 1) (h : Fin 1024) :
    shapeCast S16x1x1024 x shapeCasts_S16x1024_S16x1x1024 (ix3 p z h) = x (ix2 p h) :=
  shapeCast_apply x _ (ix3 p z h) (ix2 p h) (by
    rw [Shape.rowMajor_val_two, Shape.rowMajor_val_three]
    show p.val * 1024 + h.val = (p.val * 1 + z.val) * 1024 + h.val
    have := z.isLt; omega)

/-- [128, 1024] read as [1, 128, 1024]. -/
private theorem cast_thm3 (x : S128x1024.Idx → α) (z : Fin 1) (q : Fin 128) (h : Fin 1024) :
    shapeCast S1x128x1024 x shapeCasts_S128x1024_S1x128x1024 (ix3 z q h) = x (ix2 q h) :=
  shapeCast_apply x _ (ix3 z q h) (ix2 q h) (by
    rw [Shape.rowMajor_val_two, Shape.rowMajor_val_three]
    show q.val * 1024 + h.val = (z.val * 128 + q.val) * 1024 + h.val
    have := z.isLt; omega)

/-- [1024] read as [1, 1, 1024]. -/
private theorem cast_bias3 (x : S1024.Idx → α) (z z' : Fin 1) (h : Fin 1024) :
    shapeCast S1x1x1024 x shapeCasts_S1024_S1x1x1024 (ix3 z z' h) = x (ix1 h) :=
  shapeCast_apply x _ (ix3 z z' h) (ix1 h) (by
    rw [Shape.rowMajor_val_one, Shape.rowMajor_val_three]
    show h.val = (z.val * 1 + z'.val) * 1024 + h.val
    have := z.isLt; have := z'.isLt; omega)

/-- [16, 128, 1024] flattened to [2048, 1024]: row `128 * p + q` is the pair (p, q). -/
private theorem cast_flat (x : S16x128x1024.Idx → α) (p : Fin 16) (q : Fin 128) (h : Fin 1024) :
    shapeCast S2048x1024 x shapeCasts_S16x128x1024_S2048x1024 (ix2 (row p q) h) = x (ix3 p q h) :=
  shapeCast_apply x _ (ix2 (row p q) h) (ix3 p q h) (by
    rw [Shape.rowMajor_val_three, Shape.rowMajor_val_two]
    show (p.val * 128 + q.val) * 1024 + h.val = (128 * p.val + q.val) * 1024 + h.val
    omega)

/-- [2048, 1024] unflattened to [16, 128, 1024]. -/
private theorem cast_unflat (x : S2048x1024.Idx → α) (p : Fin 16) (q : Fin 128) (h : Fin 1024) :
    shapeCast S16x128x1024 x shapeCasts_S2048x1024_S16x128x1024 (ix3 p q h) = x (ix2 (row p q) h) :=
  shapeCast_apply x _ (ix3 p q h) (ix2 (row p q) h) (by
    rw [Shape.rowMajor_val_two, Shape.rowMajor_val_three]
    show (128 * p.val + q.val) * 1024 + h.val = (p.val * 128 + q.val) * 1024 + h.val
    omega)

/-- [2048, 1] read as [16, 128]. -/
private theorem cast_out (x : S2048x1.Idx → α) (p : Fin 16) (q : Fin 128) :
    shapeCast S16x128 x shapeCasts_S2048x1_S16x128 (ix2 p q) = x (ix2 (row p q) (0 : Fin 1)) :=
  shapeCast_apply x _ (ix2 p q) (ix2 (row p q) (0 : Fin 1)) (by
    rw [Shape.rowMajor_val_two, Shape.rowMajor_val_two]
    show (128 * p.val + q.val) * 1 + 0 = p.val * 128 + q.val
    omega)

/-- [512] read as [1, 512]. -/
private theorem cast_bias2 (x : S512.Idx → α) (z : Fin 1) (j : Fin 512) :
    shapeCast S1x512 x shapeCasts_S512_S1x512 (ix2 z j) = x (ix1 j) :=
  shapeCast_apply x _ (ix2 z j) (ix1 j) (by
    rw [Shape.rowMajor_val_one, Shape.rowMajor_val_two]
    show j.val = z.val * 512 + j.val
    have := z.isLt; omega)

/-- [1] read as [1, 1]. -/
private theorem cast_bias1 (x : S1.Idx → α) (z z' : Fin 1) :
    shapeCast S1x1 x shapeCasts_S1_S1x1 (ix2 z z') = x (ix1 (0 : Fin 1)) :=
  shapeCast_apply x _ (ix2 z z') (ix1 (0 : Fin 1)) (by
    rw [Shape.rowMajor_val_one, Shape.rowMajor_val_two]
    show 0 = z.val * 1 + z'.val
    have := z.isLt; have := z'.isLt; omega)

/-- [1, 1024] read as [1024]. -/
private theorem cast_row1024 (x : S1x1024.Idx → α) (h : Fin 1024) :
    shapeCast S1024 x shapeCasts_S1x1024_S1024 (ix1 h) = x (ix2 (0 : Fin 1) h) :=
  shapeCast_apply x _ (ix1 h) (ix2 (0 : Fin 1) h) (by
    rw [Shape.rowMajor_val_two, Shape.rowMajor_val_one]
    show 0 * 1024 + h.val = h.val
    omega)

/-- [1, 512] read as [512]. -/
private theorem cast_row512 (x : S1x512.Idx → α) (j : Fin 512) :
    shapeCast S512 x shapeCasts_S1x512_S512 (ix1 j) = x (ix2 (0 : Fin 1) j) :=
  shapeCast_apply x _ (ix1 j) (ix2 (0 : Fin 1) j) (by
    rw [Shape.rowMajor_val_two, Shape.rowMajor_val_one]
    show 0 * 512 + j.val = j.val
    omega)

/-- [1, 1] read as [1]. -/
private theorem cast_row1 (x : S1x1.Idx → α) (z : Fin 1) :
    shapeCast S1 x shapeCasts_S1x1_S1 (ix1 z) = x (ix2 (0 : Fin 1) (0 : Fin 1)) :=
  shapeCast_apply x _ (ix1 z) (ix2 (0 : Fin 1) (0 : Fin 1)) (by
    rw [Shape.rowMajor_val_two, Shape.rowMajor_val_one]
    show 0 * 1 + 0 = z.val
    have := z.isLt; omega)

/-- A [16, 1, 1024] array repeated along the middle axis. -/
private theorem bcast_goal (x : S16x1x1024.Idx → α) (p : Fin 16) (q : Fin 128) (h : Fin 1024) :
    broadcastTo S16x128x1024 x broadcasts_S16x1x1024_S16x128x1024 (ix3 p q h) = x (ix3 p (0 : Fin 1) h) :=
  broadcastTo_apply x _ (ix3 p q h) (ix3 p (0 : Fin 1) h) (fun a => match a with
    | ⟨0, _⟩ => by show p.val = if (16 : Nat) = 1 then 0 else p.val; rw [if_neg (by decide)]
    | ⟨1, _⟩ => by show 0 = if (1 : Nat) = 1 then 0 else q.val; rw [if_pos rfl]
    | ⟨2, _⟩ => by show h.val = if (1024 : Nat) = 1 then 0 else h.val; rw [if_neg (by decide)])

/-- A [1, 128, 1024] array repeated along the leading axis. -/
private theorem bcast_thm (x : S1x128x1024.Idx → α) (p : Fin 16) (q : Fin 128) (h : Fin 1024) :
    broadcastTo S16x128x1024 x broadcasts_S1x128x1024_S16x128x1024 (ix3 p q h) = x (ix3 (0 : Fin 1) q h) :=
  broadcastTo_apply x _ (ix3 p q h) (ix3 (0 : Fin 1) q h) (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show h.val = if (1024 : Nat) = 1 then 0 else h.val; rw [if_neg (by decide)])

/-- A [1, 1, 1024] array repeated along the two leading axes. -/
private theorem bcast_bias3 (x : S1x1x1024.Idx → α) (p : Fin 16) (q : Fin 128) (h : Fin 1024) :
    broadcastTo S16x128x1024 x broadcasts_S1x1x1024_S16x128x1024 (ix3 p q h) = x (ix3 (0 : Fin 1) (0 : Fin 1) h) :=
  broadcastTo_apply x _ (ix3 p q h) (ix3 (0 : Fin 1) (0 : Fin 1) h) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show h.val = if (1024 : Nat) = 1 then 0 else h.val; rw [if_neg (by decide)])

/-- A [1, 512] row repeated down 2048 rows. -/
private theorem bcast_bias2 (x : S1x512.Idx → α) (r : Fin 2048) (j : Fin 512) :
    broadcastTo S2048x512 x broadcasts_S1x512_S2048x512 (ix2 r j) = x (ix2 (0 : Fin 1) j) :=
  broadcastTo_apply x _ (ix2 r j) (ix2 (0 : Fin 1) j) (fun a => match a with
    | ⟨0, _⟩ => by show 0 = if (1 : Nat) = 1 then 0 else r.val; rw [if_pos rfl]
    | ⟨1, _⟩ => by show j.val = if (512 : Nat) = 1 then 0 else j.val; rw [if_neg (by decide)])

/-- A [1, 1] entry repeated down 2048 rows. -/
private theorem bcast_bias1 (x : S1x1.Idx → α) (r : Fin 2048) (z : Fin 1) :
    broadcastTo S2048x1 x broadcasts_S1x1_S2048x1 (ix2 r z) = x (ix2 (0 : Fin 1) (0 : Fin 1)) :=
  broadcastTo_apply x _ (ix2 r z) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else z.val; rw [if_pos rfl])

end Layout

/-! ### The values the body reads before its store, each at an index -/

/-- The goal block as loaded: the cast to its own shape changes nothing. -/
private theorem pay2_eq (v0 : Vec Ideal S16x1024 .bf16) : k0_pay2 (F := Ideal) v0 = v0 := by
  unfold k0_pay2
  exact shapeCast_self _ _

/-- The theorem block as loaded. -/
private theorem pay3_eq (v2 : Vec Ideal S128x1024 .bf16) : k0_pay3 (F := Ideal) v2 = v2 := by
  unfold k0_pay3
  exact shapeCast_self _ _

/-- The first bias, entry h. -/
private theorem pay4_apply (v10 : Vec Ideal S1x1024 .f32) (h : Fin 1024) :
    k0_pay4 (F := Ideal) v10 (ix1 h) = v10 (ix2 (0 : Fin 1) h) := by
  unfold k0_pay4
  refine (cast_row1024 _ h).trans ?_
  exact congrFun (shapeCast_self v10 _) _

/-- The second weight matrix as loaded. -/
private theorem pay5_eq (v13 : Vec Ideal S1024x512 .bf16) : k0_pay5 (F := Ideal) v13 = v13 := by
  unfold k0_pay5
  exact shapeCast_self _ _

/-- The second bias, entry j. -/
private theorem pay6_apply (v15 : Vec Ideal S1x512 .f32) (j : Fin 512) :
    k0_pay6 (F := Ideal) v15 (ix1 j) = v15 (ix2 (0 : Fin 1) j) := by
  unfold k0_pay6
  refine (cast_row512 _ j).trans ?_
  exact congrFun (shapeCast_self v15 _) _

/-- The last weight column as loaded. -/
private theorem pay7_eq (v18 : Vec Ideal S512x1 .bf16) : k0_pay7 (F := Ideal) v18 = v18 := by
  unfold k0_pay7
  exact shapeCast_self _ _

/-- The last bias. -/
private theorem pay8_apply (v20 : Vec Ideal S1x1 .f32) (z : Fin 1) :
    k0_pay8 (F := Ideal) v20 (ix1 z) = v20 (ix2 (0 : Fin 1) (0 : Fin 1)) := by
  unfold k0_pay8
  refine (cast_row1 _ z).trans ?_
  exact congrFun (shapeCast_self v20 _) _

/-- The theorem part of the first layer: row q of the theorem block against column h of its weights. -/
private theorem pay9_apply (v2 : Vec Ideal S128x1024 .bf16) (v6 : Vec Ideal S1024x1024 .bf16) (q : Fin 128) (h : Fin 1024) :
    k0_pay9 (F := Ideal) v2 v6 (ix2 q h) = ∑ e : Fin 1024, v2 (ix2 q e) * v6 (ix2 e h) := by
  unfold k0_pay9
  rw [pay3_eq, shapeCast_self]
  exact mm_thm v2 v6 q h

/-- The goal part of the first layer, the same for every theorem row q. -/
private theorem pay11_apply (v0 : Vec Ideal S16x1024 .bf16) (v4 : Vec Ideal S1024x1024 .bf16) (p : Fin 16) (q : Fin 128) (h : Fin 1024) :
    k0_pay11 (F := Ideal) v0 v4 (ix3 p q h) = ∑ e : Fin 1024, v0 (ix2 p e) * v4 (ix2 e h) := by
  unfold k0_pay11
  refine (bcast_goal _ p q h).trans ?_
  refine (cast_goal3 _ p (0 : Fin 1) h).trans ?_
  rw [pay2_eq, shapeCast_self]
  exact mm_goal v0 v4 p h

/-- The product part of the first layer: the entrywise product of goal row p and theorem row q against
    column h of its weights. -/
private theorem pay10_apply (v0 : Vec Ideal S16x1024 .bf16) (v2 : Vec Ideal S128x1024 .bf16) (v8 : Vec Ideal S1024x1024 .bf16)
    (p : Fin 16) (q : Fin 128) (h : Fin 1024) :
    k0_pay10 (F := Ideal) v0 v2 v8 (ix3 p q h) = ∑ e : Fin 1024, (v0 (ix2 p e) * v2 (ix2 q e)) * v8 (ix2 e h) := by
  unfold k0_pay10
  refine (cast_unflat _ p q h).trans ?_
  refine (mm_pair _ _ (row p q) h).trans ?_
  refine Finset.sum_congr rfl fun e _ => ?_
  refine congrArg₂ (· * ·) ?_ (congrFun (shapeCast_self v8 _) _)
  refine (cast_flat _ p q e).trans ?_
  refine (mulf_apply _ _ _).trans ?_
  refine congrArg₂ (· * ·) ?_ ?_
  · refine (bcast_goal _ p q e).trans ?_
    refine (cast_goal3 _ p (0 : Fin 1) e).trans ?_
    exact congrFun (pay2_eq v0) _
  · refine (bcast_thm _ p q e).trans ?_
    refine (cast_thm3 _ (0 : Fin 1) q e).trans ?_
    exact congrFun (pay3_eq v2) _

/-! ### The stored value -/

/-- The splat the two rectifications compare against is the extended real 0. -/
private theorem zero_word : (Scalar.ofBits .f32 0x00000000#32 : Ideal .f32) = 0 := Ideal.ofBits_zero_f32

/-- The store's value at (p, q) for arbitrary operands: the three parts of the first layer and its bias are added
    and rectified, the [16, 128, 1024] result is flattened so that the pair (p, q) is row `128 * p + q`, the second
    layer's product, bias and rectification and the last layer's product and bias act on that row, and the [2048, 1]
    column is read back as [16, 128]. -/
private theorem pay1_apply (v12 : FVec Ideal S1024 .f32) (v14 : FVec Ideal S1024x512 .bf16) (v17 : FVec Ideal S512 .f32)
    (v19 : FVec Ideal S512x1 .bf16) (v22 : FVec Ideal S1 .f32) (v31 : FVec Ideal S128x1024 .f32)
    (v32 v34 : FVec Ideal S16x128x1024 .f32) (p : Fin 16) (q : Fin 128) :
    k0_pay1 (F := Ideal) v12 v14 v17 v19 v22 v31 v32 v34 (ix2 p q)
      = (∑ j : Fin 512,
          max ((∑ h : Fin 1024,
                max (((v32 (ix3 p q h) + v34 (ix3 p q h)) + v31 (ix2 q h)) + v12 (ix1 h)) 0 * v14 (ix2 h j))
               + v17 (ix1 j)) 0 * v19 (ix2 j (0 : Fin 1)))
        + v22 (ix1 (0 : Fin 1)) := by
  unfold k0_pay1
  refine (cast_out _ p q).trans ?_
  refine (addf_apply _ _ _).trans ?_
  refine congrArg₂ (· + ·) ?_ ?_
  · refine (mm_last _ _ (row p q) (0 : Fin 1)).trans ?_
    refine Finset.sum_congr rfl fun j _ => ?_
    refine congrArg₂ (· * ·) ?_ rfl
    refine (truncf_apply (ψ := .bf16) (φ := .f32) _ bitsLt_bf16_f32 _).trans ?_
    refine (maximumf_apply _ _ _).trans ?_
    refine congrArg₂ max ?_ zero_word
    refine (addf_apply _ _ _).trans ?_
    refine congrArg₂ (· + ·) ?_ ?_
    · refine (mm_second _ _ (row p q) j).trans ?_
      refine Finset.sum_congr rfl fun h _ => ?_
      refine congrArg₂ (· * ·) ?_ rfl
      refine (truncf_apply (ψ := .bf16) (φ := .f32) _ bitsLt_bf16_f32 _).trans ?_
      refine (cast_flat _ p q h).trans ?_
      refine (maximumf_apply _ _ _).trans ?_
      refine congrArg₂ max ?_ zero_word
      refine (addf_apply _ _ _).trans ?_
      refine congrArg₂ (· + ·) ?_ ?_
      · refine (addf_apply _ _ _).trans ?_
        refine congrArg₂ (· + ·) (addf_apply _ _ _) ?_
        refine (bcast_thm _ p q h).trans ?_
        exact cast_thm3 _ (0 : Fin 1) q h
      · refine (bcast_bias3 _ p q h).trans ?_
        exact cast_bias3 _ (0 : Fin 1) (0 : Fin 1) h
    · refine (bcast_bias2 _ (row p q) j).trans ?_
      exact cast_bias2 _ (0 : Fin 1) j
  · refine (bcast_bias1 _ (row p q) (0 : Fin 1)).trans ?_
    exact cast_bias1 _ (0 : Fin 1) (0 : Fin 1)

/-- The stored value at (p, q) is the pair network's output for goal row p and theorem row q. -/
theorem pay_apply (v0 : Vec Ideal S16x1024 .bf16) (v2 : Vec Ideal S128x1024 .bf16)
    (v4 v6 v8 : Vec Ideal S1024x1024 .bf16) (v10 : Vec Ideal S1x1024 .f32) (v13 : Vec Ideal S1024x512 .bf16)
    (v15 : Vec Ideal S1x512 .f32) (v18 : Vec Ideal S512x1 .bf16) (v20 : Vec Ideal S1x1 .f32) (p : Fin 16) (q : Fin 128) :
    k0_pay1 (F := Ideal) (k0_pay4 v10) (k0_pay5 v13) (k0_pay6 v15) (k0_pay7 v18) (k0_pay8 v20) (k0_pay9 v2 v6)
        (k0_pay10 v0 v2 v8) (k0_pay11 v0 v4) (ix2 p q)
      = Cert.PairMlp.logit
          (fun j => Cert.PairMlp.hid2
            (fun h => Cert.PairMlp.hid1 (fun e => v0 (ix2 p e)) (fun e => v2 (ix2 q e))
              (fun e => v4 (ix2 e h)) (fun e => v6 (ix2 e h)) (fun e => v8 (ix2 e h)) (v10 (ix2 (0 : Fin 1) h)))
            (fun h => v13 (ix2 h j)) (v15 (ix2 (0 : Fin 1) j)))
          (fun j => v18 (ix2 j (0 : Fin 1))) (v20 (ix2 (0 : Fin 1) (0 : Fin 1))) := by
  refine (pay1_apply _ _ _ _ _ _ _ _ p q).trans ?_
  unfold Cert.PairMlp.logit Cert.PairMlp.hid2 Cert.PairMlp.hid1
  refine congrArg₂ (· + ·) (Finset.sum_congr rfl fun j _ => ?_) (pay8_apply v20 (0 : Fin 1))
  refine congrArg₂ (· * ·) ?_ (congrFun (pay7_eq v18) _)
  refine congrArg₂ max ?_ rfl
  refine congrArg₂ (· + ·) (Finset.sum_congr rfl fun h _ => ?_) (pay6_apply v15 j)
  refine congrArg₂ (· * ·) ?_ (congrFun (pay5_eq v13) _)
  refine congrArg₂ max ?_ rfl
  refine congrArg₂ (· + ·) ?_ (pay4_apply v10 h)
  refine congrArg₂ (· + ·) ?_ (pay9_apply v2 v6 q h)
  exact congrArg₂ (· + ·) (pay10_apply v0 v2 v8 p q h) (pay11_apply v0 v4 p q h)

end Cert.KernelIdeal.BlockValue

end
-- ==== Proof.HostIn.lean ====
/-
  The arrays the region finds, as functions of the program's arguments: the two casts to bf16 are the identity on
  the extended reals, the three slices of W1 are its rows 0..1023, 1024..2047 and 2048..3071, and the three biases
  are reshaped to one row.

  Each lemma has the same two steps. First the array the region finds is written as the host operations' term over
  the launched arguments (the operations before the region write each result buffer once, and no later one
  overwrites it). Then that term is read at an index: a narrowing of the float type does nothing to an extended
  real; a slice with offsets (o, 0) read at (e, h) is the operand at (o + e, h); a reshape of [n] to [1, n] read at
  (0, h) is the operand at the index of the same row-major position, 0 * n + h = h.
-/
import proofs.«123708_j12000138625194_1_alg».proof.Proof.Gen.KernelIdeal.Frame
import proofs.«123708_j12000138625194_1_alg».proof.Proof.Spec
import Idealize.ShloMosaic.Lib.Pipeline.Value
import Idealize.ShloMosaic.Lib.StableHlo.Run

noncomputable section

namespace Cert.KernelIdeal.HostIn

open Cert.KernelIdeal Cert.KernelIdeal.Gen Idealize.ShloMosaic Idealize.ShloMosaic.TcCoe Idealize.ShloMosaic.ValueIdx Idealize.SL.Sem
open Cert.PairMlp (lo mid hi)

variable (m : (ℓ : Loc nD τ sig) → Buf (Elt Ideal) ℓ)

theorem goal_at (c : Dev nD) (n : Fin 128) (e : Fin 1024) :
    V m c main_v0 (ix2 n e) = m ((c : Thread nD τ).loc main_arg0) (ix2 n e) := by
  have e0 : V m c main_v0 =
      (truncf .bf16 (m ((c : Thread nD τ).loc main_arg0) : FVec Ideal S128x1024 .f32) bitsLt_bf16_f32 : FVec Ideal S128x1024 .bf16) := by
    show StableHlo.after hostOps0 (fun b => m (c, b)) (Proc.devRef .tc main_v0) = _
    after_results
  rw [e0, truncf_apply]

theorem thm_at (c : Dev nD) (p : Fin 512) (e : Fin 1024) :
    V m c main_v1 (ix2 p e) = m ((c : Thread nD τ).loc main_arg1) (ix2 p e) := by
  have e0 : V m c main_v1 =
      (truncf .bf16 (m ((c : Thread nD τ).loc main_arg1) : FVec Ideal S512x1024 .f32) bitsLt_bf16_f32 : FVec Ideal S512x1024 .bf16) := by
    show StableHlo.after hostOps0 (fun b => m (c, b)) (Proc.devRef .tc main_v1) = _
    after_results
  rw [e0, truncf_apply]

theorem w1g_at (c : Dev nD) (e h : Fin 1024) :
    V m c main_v3 (ix2 e h) = m ((c : Thread nD τ).loc main_arg2) (ix2 (lo e) h) := by
  have e0 : V m c main_v3 =
      (truncf .bf16 (extractStridedSlice S1024x1024 ![0, 0]
        (m ((c : Thread nD τ).loc main_arg2) : FVec Ideal S3072x1024 .f32) slices_S3072x1024_S1024x1024_0_0
          : FVec Ideal S1024x1024 .f32) bitsLt_bf16_f32 : FVec Ideal S1024x1024 .bf16) := by
    show StableHlo.after hostOps0 (fun b => m (c, b)) (Proc.devRef .tc main_v3) = _
    after_results
  rw [e0, truncf_apply]
  refine extractStridedSlice_apply _ _ _ _ (ix2 (lo e) h) (fun a => ?_)
  match a with
  | ⟨0, _⟩ => show e.val = 0 + e.val; omega
  | ⟨1, _⟩ => show h.val = 0 + h.val; omega

theorem w1t_at (c : Dev nD) (e h : Fin 1024) :
    V m c main_v5 (ix2 e h) = m ((c : Thread nD τ).loc main_arg2) (ix2 (mid e) h) := by
  have e0 : V m c main_v5 =
      (truncf .bf16 (extractStridedSlice S1024x1024 ![1024, 0]
        (m ((c : Thread nD τ).loc main_arg2) : FVec Ideal S3072x1024 .f32) slices_S3072x1024_S1024x1024_1024_0
          : FVec Ideal S1024x1024 .f32) bitsLt_bf16_f32 : FVec Ideal S1024x1024 .bf16) := by
    show StableHlo.after hostOps0 (fun b => m (c, b)) (Proc.devRef .tc main_v5) = _
    after_results
  rw [e0, truncf_apply]
  refine extractStridedSlice_apply _ _ _ _ (ix2 (mid e) h) (fun a => ?_)
  match a with
  | ⟨0, _⟩ => show 1024 + e.val = 1024 + e.val; omega
  | ⟨1, _⟩ => show h.val = 0 + h.val; omega

theorem w1m_at (c : Dev nD) (e h : Fin 1024) :
    V m c main_v7 (ix2 e h) = m ((c : Thread nD τ).loc main_arg2) (ix2 (hi e) h) := by
  have e0 : V m c main_v7 =
      (truncf .bf16 (extractStridedSlice S1024x1024 ![2048, 0]
        (m ((c : Thread nD τ).loc main_arg2) : FVec Ideal S3072x1024 .f32) slices_S3072x1024_S1024x1024_2048_0
          : FVec Ideal S1024x1024 .f32) bitsLt_bf16_f32 : FVec Ideal S1024x1024 .bf16) := by
    show StableHlo.after hostOps0 (fun b => m (c, b)) (Proc.devRef .tc main_v7) = _
    after_results
  rw [e0, truncf_apply]
  refine extractStridedSlice_apply _ _ _ _ (ix2 (hi e) h) (fun a => ?_)
  match a with
  | ⟨0, _⟩ => show 2048 + e.val = 2048 + e.val; omega
  | ⟨1, _⟩ => show h.val = 0 + h.val; omega

theorem b1_at (c : Dev nD) (h : Fin 1024) :
    V m c main_v10 (ix2 (0 : Fin 1) h) = m ((c : Thread nD τ).loc main_arg3) (ix1 h) := by
  have e0 : V m c main_v10 =
      (shapeCast S1x1024 (m ((c : Thread nD τ).loc main_arg3) : FVec Ideal S1024 .f32) shapeCasts_S1024_S1x1024 : FVec Ideal S1x1024 .f32) := by
    show StableHlo.after hostOps0 (fun b => m (c, b)) (Proc.devRef .tc main_v10) = _
    after_results
    rfl
  rw [e0]
  refine shapeCast_apply _ _ _ (ix1 h) ?_
  rw [Shape.rowMajor_val_one, Shape.rowMajor_val_two]
  show (h).val = (0 : Fin 1).val * 1024 + (h).val
  show (h).val = 0 * 1024 + (h).val
  omega

theorem w2_at (c : Dev nD) (h : Fin 1024) (j : Fin 512) :
    V m c main_v8 (ix2 h j) = m ((c : Thread nD τ).loc main_arg4) (ix2 h j) := by
  have e0 : V m c main_v8 =
      (truncf .bf16 (m ((c : Thread nD τ).loc main_arg4) : FVec Ideal S1024x512 .f32) bitsLt_bf16_f32 : FVec Ideal S1024x512 .bf16) := by
    show StableHlo.after hostOps0 (fun b => m (c, b)) (Proc.devRef .tc main_v8) = _
    after_results
  rw [e0, truncf_apply]

theorem b2_at (c : Dev nD) (j : Fin 512) :
    V m c main_v11 (ix2 (0 : Fin 1) j) = m ((c : Thread nD τ).loc main_arg5) (ix1 j) := by
  have e0 : V m c main_v11 =
      (shapeCast S1x512 (m ((c : Thread nD τ).loc main_arg5) : FVec Ideal S512 .f32) shapeCasts_S512_S1x512 : FVec Ideal S1x512 .f32) := by
    show StableHlo.after hostOps0 (fun b => m (c, b)) (Proc.devRef .tc main_v11) = _
    after_results
    rfl
  rw [e0]
  refine shapeCast_apply _ _ _ (ix1 j) ?_
  rw [Shape.rowMajor_val_one, Shape.rowMajor_val_two]
  show (j).val = (0 : Fin 1).val * 512 + (j).val
  show (j).val = 0 * 512 + (j).val
  omega

theorem w3_at (c : Dev nD) (j : Fin 512) (o : Fin 1) :
    V m c main_v9 (ix2 j o) = m ((c : Thread nD τ).loc main_arg6) (ix2 j o) := by
  have e0 : V m c main_v9 =
      (truncf .bf16 (m ((c : Thread nD τ).loc main_arg6) : FVec Ideal S512x1 .f32) bitsLt_bf16_f32 : FVec Ideal S512x1 .bf16) := by
    show StableHlo.after hostOps0 (fun b => m (c, b)) (Proc.devRef .tc main_v9) = _
    after_results
  rw [e0, truncf_apply]

theorem b3_at (c : Dev nD) :
    V m c main_v12 (ix2 (0 : Fin 1) (0 : Fin 1)) = m ((c : Thread nD τ).loc main_arg7) (ix1 (0 : Fin 1)) := by
  have e0 : V m c main_v12 =
      (shapeCast S1x1 (m ((c : Thread nD τ).loc main_arg7) : FVec Ideal S1 .f32) shapeCasts_S1_S1x1 : FVec Ideal S1x1 .f32) := by
    show StableHlo.after hostOps0 (fun b => m (c, b)) (Proc.devRef .tc main_v12) = _
    after_results
    rfl
  rw [e0]
  refine shapeCast_apply _ _ _ (ix1 (0 : Fin 1)) ?_
  rw [Shape.rowMajor_val_one, Shape.rowMajor_val_two]
  show (0 : Fin 1).val = (0 : Fin 1).val * 1 + (0 : Fin 1).val
  show 0 = 0 * 1 + 0
  omega

end Cert.KernelIdeal.HostIn

end
-- ==== Proof.Blocks.lean ====
/-
  From the blocks to the array. The grid is 8 x 4; at point t = (i0, i1) the body sees rows 16 i0 .. 16 i0 + 15 of the
  goals, rows 128 i1 .. 128 i1 + 127 of the theorems and the whole of every weight and bias, and writes the
  [16, 128] block (i0, i1) of the [128, 512] output. Entry (p, q) of that block is the pair network of goal
  16 i0 + p and theorem 128 i1 + q; the 32 blocks tile the output, so the output array ends as the table of all
  pairs' scores.
-/
import proofs.«123708_j12000138625194_1_alg».proof.Proof.Gen.KernelIdeal.Frame
import proofs.«123708_j12000138625194_1_alg».proof.Proof.Spec
import proofs.«123708_j12000138625194_1_alg».proof.Proof.Payload
import proofs.«123708_j12000138625194_1_alg».proof.Proof.HostIn
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.PairMlp (lo mid hi)

variable (m : (ℓ : Loc nD τ sig) → Buf (Elt Ideal) ℓ)

/-- The table of all pairs' scores, of the program's arguments on core `c`. -/
abbrev tbl (c : Dev nD) : S128x512.Idx → EReal :=
  Cert.PairMlp.table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-! ## The body's block at an entry -/

/-- The body loads every block whole and stores its result whole, so the block it leaves is its one payload. -/
theorem out_apply (x0 : Vec Ideal S16x1024 .bf16) (x1 : Vec Ideal S128x1024 .bf16) (x2 x3 x4 : Vec Ideal S1024x1024 .bf16)
    (x5 : Vec Ideal S1x1024 .f32) (x6 : Vec Ideal S1024x512 .bf16) (x7 : Vec Ideal S1x512 .f32) (x8 : Vec Ideal S512x1 .bf16)
    (x9 : Vec Ideal S1x1 .f32) (p : Fin 16) (q : Fin 128) :
    out0_10 (F := Ideal) x0 x1 x2 x3 x4 x5 x6 x7 x8 x9 (ix2 p q)
      = Cert.PairMlp.logit
          (fun j => Cert.PairMlp.hid2
            (fun h => Cert.PairMlp.hid1 (fun e => x0 (ix2 p e)) (fun e => x1 (ix2 q e))
              (fun e => x2 (ix2 e h)) (fun e => x3 (ix2 e h)) (fun e => x4 (ix2 e h)) (x5 (ix2 (0 : Fin 1) h)))
            (fun h => x6 (ix2 h j)) (x7 (ix2 (0 : Fin 1) j)))
          (fun j => x8 (ix2 j (0 : Fin 1))) (x9 (ix2 (0 : Fin 1) (0 : Fin 1))) := by
  unfold out0_10
  rw [View.canon_unit_zero hz]
  simp only [View.ld_unit_zero (S := S16x1024) hz, View.ld_unit_zero (S := S128x1024) hz, View.ld_unit_zero (S := S1024x1024) hz,
    View.ld_unit_zero (S := S1x1024) hz, View.ld_unit_zero (S := S1024x512) hz, View.ld_unit_zero (S := S1x512) hz,
    View.ld_unit_zero (S := S512x1) hz, View.ld_unit_zero (S := S1x1) hz]
  exact BlockValue.pay_apply x0 x1 x2 x3 x4 x5 x6 x7 x8 x9 p q

/-- When the loaded blocks are rows `row p` of the goals, rows `col q` of the theorems and the whole weights and biases,
    entry (p, q) of the body's block is the score of the pair (row p, col q). -/
theorem block_value (c : Dev nD) (x0 : Vec Ideal S16x1024 .bf16) (x1 : Vec Ideal S128x1024 .bf16) (x2 x3 x4 : Vec Ideal S1024x1024 .bf16)
    (x5 : Vec Ideal S1x1024 .f32) (x6 : Vec Ideal S1024x512 .bf16) (x7 : Vec Ideal S1x512 .f32) (x8 : Vec Ideal S512x1 .bf16)
    (x9 : Vec Ideal S1x1 .f32) (row : Fin 16 → Fin 128) (col : Fin 128 → Fin 512)
    (h0 : ∀ (p : Fin 16) (e : Fin 1024), x0 (ix2 p e) = (m ((c : Thread nD τ).loc main_arg0)) (ix2 (row p) e))
    (h1 : ∀ (q : Fin 128) (e : Fin 1024), x1 (ix2 q e) = (m ((c : Thread nD τ).loc main_arg1)) (ix2 (col q) e))
    (h2 : ∀ e h : Fin 1024, x2 (ix2 e h) = (m ((c : Thread nD τ).loc main_arg2)) (ix2 (lo e) h))
    (h3 : ∀ e h : Fin 1024, x3 (ix2 e h) = (m ((c : Thread nD τ).loc main_arg2)) (ix2 (mid e) h))
    (h4 : ∀ e h : Fin 1024, x4 (ix2 e h) = (m ((c : Thread nD τ).loc main_arg2)) (ix2 (hi e) h))
    (h5 : ∀ h : Fin 1024, x5 (ix2 (0 : Fin 1) h) = (m ((c : Thread nD τ).loc main_arg3)) (ix1 h))
    (h6 : ∀ (h : Fin 1024) (j : Fin 512), x6 (ix2 h j) = (m ((c : Thread nD τ).loc main_arg4)) (ix2 h j))
    (h7 : ∀ j : Fin 512, x7 (ix2 (0 : Fin 1) j) = (m ((c : Thread nD τ).loc main_arg5)) (ix1 j))
    (h8 : ∀ j : Fin 512, x8 (ix2 j (0 : Fin 1)) = (m ((c : Thread nD τ).loc main_arg6)) (ix2 j (0 : Fin 1)))
    (h9 : x9 (ix2 (0 : Fin 1) (0 : Fin 1)) = (m ((c : Thread nD τ).loc main_arg7)) (ix1 (0 : Fin 1))) (p : Fin 16) (q : Fin 128) :
    out0_10 (F := Ideal) x0 x1 x2 x3 x4 x5 x6 x7 x8 x9 (ix2 p q)
      = Cert.PairMlp.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row p) (col q) 0 := by
  rw [out_apply]
  unfold Cert.PairMlp.score Cert.PairMlp.layer2 Cert.PairMlp.layer1
  simp only [h0, h1, h2, h3, h4, h5, h6, h7, h8, h9]

/-! ## The index maps, decided once over the 32 grid points -/

/-- The goal window moves with the output's row of blocks, the theorem window with its column of blocks, every other
    input window stays at block (0, 0); the output's block indices stay in 8 x 4. -/
theorem idx_facts : ∀ t : Fin cfg0.N,
    win0_0.index t (0 : Fin 2) = win0_10.index t (0 : Fin 2) ∧ win0_0.index t (1 : Fin 2) = 0
    ∧ win0_1.index t (0 : Fin 2) = win0_10.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) ≤ 7 ∧ win0_10.index t (1 : Fin 2) ≤ 3 :=
  (by decide +kernel : ∀ t : Fin grid0.N, _)

/-- Every block (q0, q1) of the output is some point's. -/
theorem idx_onto : ∀ (q0 : Fin 8) (q1 : Fin 4), ∃ t : Fin cfg0.N, win0_10.index t = ![q0.val, q1.val] :=
  (by decide +kernel : ∀ (q0 : Fin 8) (q1 : Fin 4), ∃ t : Fin grid0.N, win0_10.index t = ![q0.val, q1.val])

/-! ## Each window's block at a point, as entries of the arguments -/

/-- Row `p` of the goal block at `t` is goal `n`, `n` = 16 times the output's block row plus `p`. -/
theorem goal_blk (c : Dev nD) (t : Fin cfg0.N) (p : Fin 16) (e : Fin 1024) (n : Fin 128)
    (hn : n.val = win0_10.index t (0 : Fin 2) * 16 + p.val) :
    iblk m c 0 t (ix2 p e) = (m ((c : Thread nD τ).loc main_arg0)) (ix2 n e) := by
  obtain ⟨f0, f1, -⟩ := idx_facts t
  have hemb : ((cfg0.win 0).blk t).view.emb (ix2 p e) = ix2 n e := by
    funext a; apply Fin.ext
    match a with
    | ⟨0, _⟩ => show win0_0.index t (0 : Fin 2) * 16 + 1 * p.val = n.val; omega
    | ⟨1, _⟩ => show win0_0.index t (1 : Fin 2) * 1024 + 1 * e.val = e.val; omega
  show V m c main_v0 (((cfg0.win 0).blk t).view.emb (ix2 p e)) = _
  rw [hemb]
  exact HostIn.goal_at m c n e

/-- Row `q` of the theorem block at `t` is theorem `k`, `k` = 128 times the output's block column plus `q`. -/
theorem thm_blk (c : Dev nD) (t : Fin cfg0.N) (q : Fin 128) (e : Fin 1024) (k : Fin 512)
    (hk : k.val = win0_10.index t (1 : Fin 2) * 128 + q.val) :
    iblk m c 1 t (ix2 q e) = (m ((c : Thread nD τ).loc main_arg1)) (ix2 k e) := by
  obtain ⟨-, -, f0, f1, -⟩ := idx_facts t
  have hemb : ((cfg0.win 1).blk t).view.emb (ix2 q e) = ix2 k e := by
    funext a; apply Fin.ext
    match a with
    | ⟨0, _⟩ => show win0_1.index t (0 : Fin 2) * 128 + 1 * q.val = k.val; omega
    | ⟨1, _⟩ => show win0_1.index t (1 : Fin 2) * 1024 + 1 * e.val = e.val; omega
  show V m c main_v1 (((cfg0.win 1).blk t).view.emb (ix2 q e)) = _
  rw [hemb]
  exact HostIn.thm_at m c k e

/-- Window 2's block is its whole array at every point. -/
theorem w1g_blk (c : Dev nD) (t : Fin cfg0.N) (e h : Fin 1024) :
    iblk m c 2 t (ix2 e h) = (m ((c : Thread nD τ).loc main_arg2)) (ix2 (lo e) h) := by
  obtain ⟨-, -, -, -, f0, f1, -⟩ := idx_facts t
  have hemb : ((cfg0.win 2).blk t).view.emb (ix2 e h) = ix2 e h := by
    funext a; apply Fin.ext
    match a with
    | ⟨0, _⟩ => show win0_2.index t (0 : Fin 2) * 1024 + 1 * (e).val = (e).val; omega
    | ⟨1, _⟩ => show win0_2.index t (1 : Fin 2) * 1024 + 1 * (h).val = (h).val; omega
  show V m c main_v3 (((cfg0.win 2).blk t).view.emb (ix2 e h)) = _
  rw [hemb]
  exact HostIn.w1g_at m c e h

/-- Window 3's block is its whole array at every point. -/
theorem w1t_blk (c : Dev nD) (t : Fin cfg0.N) (e h : Fin 1024) :
    iblk m c 3 t (ix2 e h) = (m ((c : Thread nD τ).loc main_arg2)) (ix2 (mid e) h) := by
  obtain ⟨-, -, -, -, -, -, f0, f1, -⟩ := idx_facts t
  have hemb : ((cfg0.win 3).blk t).view.emb (ix2 e h) = ix2 e h := by
    funext a; apply Fin.ext
    match a with
    | ⟨0, _⟩ => show win0_3.index t (0 : Fin 2) * 1024 + 1 * (e).val = (e).val; omega
    | ⟨1, _⟩ => show win0_3.index t (1 : Fin 2) * 1024 + 1 * (h).val = (h).val; omega
  show V m c main_v5 (((cfg0.win 3).blk t).view.emb (ix2 e h)) = _
  rw [hemb]
  exact HostIn.w1t_at m c e h

/-- Window 4's block is its whole array at every point. -/
theorem w1m_blk (c : Dev nD) (t : Fin cfg0.N) (e h : Fin 1024) :
    iblk m c 4 t (ix2 e h) = (m ((c : Thread nD τ).loc main_arg2)) (ix2 (hi e) h) := by
  obtain ⟨-, -, -, -, -, -, -, -, f0, f1, -⟩ := idx_facts t
  have hemb : ((cfg0.win 4).blk t).view.emb (ix2 e h) = ix2 e h := by
    funext a; apply Fin.ext
    match a with
    | ⟨0, _⟩ => show win0_4.index t (0 : Fin 2) * 1024 + 1 * (e).val = (e).val; omega
    | ⟨1, _⟩ => show win0_4.index t (1 : Fin 2) * 1024 + 1 * (h).val = (h).val; omega
  show V m c main_v7 (((cfg0.win 4).blk t).view.emb (ix2 e h)) = _
  rw [hemb]
  exact HostIn.w1m_at m c e h

/-- Window 5's block is its whole array at every point. -/
theorem b1_blk (c : Dev nD) (t : Fin cfg0.N) (h : Fin 1024) :
    iblk m c 5 t (ix2 (0 : Fin 1) h) = (m ((c : Thread nD τ).loc main_arg3)) (ix1 h) := by
  obtain ⟨-, -, -, -, -, -, -, -, -, -, f0, f1, -⟩ := idx_facts t
  have hemb : ((cfg0.win 5).blk t).view.emb (ix2 (0 : Fin 1) h) = ix2 (0 : Fin 1) h := by
    funext a; apply Fin.ext
    match a with
    | ⟨0, _⟩ => show win0_5.index t (0 : Fin 2) * 1 + 1 * ((0 : Fin 1)).val = ((0 : Fin 1)).val; omega
    | ⟨1, _⟩ => show win0_5.index t (1 : Fin 2) * 1024 + 1 * (h).val = (h).val; omega
  show V m c main_v10 (((cfg0.win 5).blk t).view.emb (ix2 (0 : Fin 1) h)) = _
  rw [hemb]
  exact HostIn.b1_at m c h

/-- Window 6's block is its whole array at every point. -/
theorem w2_blk (c : Dev nD) (t : Fin cfg0.N) (h : Fin 1024) (j : Fin 512) :
    iblk m c 6 t (ix2 h j) = (m ((c : Thread nD τ).loc main_arg4)) (ix2 h j) := by
  obtain ⟨-, -, -, -, -, -, -, -, -, -, -, -, f0, f1, -⟩ := idx_facts t
  have hemb : ((cfg0.win 6).blk t).view.emb (ix2 h j) = ix2 h j := by
    funext a; apply Fin.ext
    match a with
    | ⟨0, _⟩ => show win0_6.index t (0 : Fin 2) * 1024 + 1 * (h).val = (h).val; omega
    | ⟨1, _⟩ => show win0_6.index t (1 : Fin 2) * 512 + 1 * (j).val = (j).val; omega
  show V m c main_v8 (((cfg0.win 6).blk t).view.emb (ix2 h j)) = _
  rw [hemb]
  exact HostIn.w2_at m c h j

/-- Window 7's block is its whole array at every point. -/
theorem b2_blk (c : Dev nD) (t : Fin cfg0.N) (j : Fin 512) :
    iblk m c 7 t (ix2 (0 : Fin 1) j) = (m ((c : Thread nD τ).loc main_arg5)) (ix1 j) := by
  obtain ⟨-, -, -, -, -, -, -, -, -, -, -, -, -, -, f0, f1, -⟩ := idx_facts t
  have hemb : ((cfg0.win 7).blk t).view.emb (ix2 (0 : Fin 1) j) = ix2 (0 : Fin 1) j := by
    funext a; apply Fin.ext
    match a with
    | ⟨0, _⟩ => show win0_7.index t (0 : Fin 2) * 1 + 1 * ((0 : Fin 1)).val = ((0 : Fin 1)).val; omega
    | ⟨1, _⟩ => show win0_7.index t (1 : Fin 2) * 512 + 1 * (j).val = (j).val; omega
  show V m c main_v11 (((cfg0.win 7).blk t).view.emb (ix2 (0 : Fin 1) j)) = _
  rw [hemb]
  exact HostIn.b2_at m c j

/-- Window 8's block is its whole array at every point. -/
theorem w3_blk (c : Dev nD) (t : Fin cfg0.N) (j : Fin 512) (o : Fin 1) :
    iblk m c 8 t (ix2 j o) = (m ((c : Thread nD τ).loc main_arg6)) (ix2 j o) := by
  obtain ⟨-, -, -, -, -, -, -, -, -, -, -, -, -, -, -, -, f0, f1, -⟩ := idx_facts t
  have hemb : ((cfg0.win 8).blk t).view.emb (ix2 j o) = ix2 j o := by
    funext a; apply Fin.ext
    match a with
    | ⟨0, _⟩ => show win0_8.index t (0 : Fin 2) * 512 + 1 * (j).val = (j).val; omega
    | ⟨1, _⟩ => show win0_8.index t (1 : Fin 2) * 1 + 1 * (o).val = (o).val; omega
  show V m c main_v9 (((cfg0.win 8).blk t).view.emb (ix2 j o)) = _
  rw [hemb]
  exact HostIn.w3_at m c j o

/-- Window 9's block is its whole array at every point. -/
theorem b3_blk (c : Dev nD) (t : Fin cfg0.N)  :
    iblk m c 9 t (ix2 (0 : Fin 1) (0 : Fin 1)) = (m ((c : Thread nD τ).loc main_arg7)) (ix1 (0 : Fin 1)) := by
  obtain ⟨-, -, -, -, -, -, -, -, -, -, -, -, -, -, -, -, -, -, f0, f1, -⟩ := idx_facts t
  have hemb : ((cfg0.win 9).blk t).view.emb (ix2 (0 : Fin 1) (0 : Fin 1)) = ix2 (0 : Fin 1) (0 : Fin 1) := by
    funext a; apply Fin.ext
    match a with
    | ⟨0, _⟩ => show win0_9.index t (0 : Fin 2) * 1 + 1 * ((0 : Fin 1)).val = ((0 : Fin 1)).val; omega
    | ⟨1, _⟩ => show win0_9.index t (1 : Fin 2) * 1 + 1 * ((0 : Fin 1)).val = ((0 : Fin 1)).val; omega
  show V m c main_v12 (((cfg0.win 9).blk t).view.emb (ix2 (0 : Fin 1) (0 : Fin 1))) = _
  rw [hemb]
  exact HostIn.b3_at m c

/-! ## What a point writes back, the cover, the array -/

/-- WHAT POINT `t` WRITES BACK is block `t` of the table of scores. -/
theorem flushed_eq (c : Dev nD) (t : Fin cfg0.N) :
    (dats m 0 c).flushed 10 t = ((cfg0.win 10).blk t).view.read (Elt Ideal) (tbl m c) := by
  show (cfg0.win 10).cut (grid0.coords t) ((dats m 0 c).after 10 t) = _
  rw [after0_10]
  have fb := idx_facts t
  have b0 : win0_10.index t (0 : Fin 2) ≤ 7 := fb.2.2.2.2.2.2.2.2.2.2.2.2.2.2.2.2.2.2.2.2.1
  have b1 : win0_10.index t (1 : Fin 2) ≤ 3 := fb.2.2.2.2.2.2.2.2.2.2.2.2.2.2.2.2.2.2.2.2.2
  have hr : ∀ p : Fin 16, win0_10.index t (0 : Fin 2) * 16 + p.val < 128 := fun p => by have := p.isLt; omega
  have hc : ∀ q : Fin 128, win0_10.index t (1 : Fin 2) * 128 + q.val < 512 := fun q => by have := q.isLt; omega
  funext j
  obtain ⟨p, q, rfl⟩ : ∃ (p : Fin 16) (q : Fin 128), j = ix2 p q := ⟨j 0, j 1, eq_ix2 (n0 := 16) (n1 := 128) j⟩
  have hemb : ((cfg0.win 10).blk t).view.emb (ix2 p q) = ix2 (⟨_, hr p⟩ : Fin 128) (⟨_, hc q⟩ : Fin 512) := by
    funext a; apply Fin.ext
    match a with
    | ⟨0, _⟩ => show win0_10.index t (0 : Fin 2) * 16 + 1 * p.val = win0_10.index t (0 : Fin 2) * 16 + p.val; omega
    | ⟨1, _⟩ => show win0_10.index t (1 : Fin 2) * 128 + 1 * q.val = win0_10.index t (1 : Fin 2) * 128 + q.val; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q)
    = Cert.PairMlp.table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix2 p q))
  rw [hemb]
  exact block_value m c (iblk m c 0 t) (iblk m c 1 t) (iblk m c 2 t) (iblk m c 3 t) (iblk m c 4 t) (iblk m c 5 t) (iblk m c 6 t) (iblk m c 7 t) (iblk m c 8 t) (iblk m c 9 t) (fun p => ⟨_, hr p⟩) (fun q => ⟨_, hc q⟩)
    (fun p e => goal_blk m c t p e _ rfl) (fun q e => thm_blk m c t q e _ rfl)
    (fun e h => w1g_blk m c t e h) (fun e h => w1t_blk m c t e h) (fun e h => w1m_blk m c t e h)
    (fun h => b1_blk m c t h) (fun h j => w2_blk m c t h j) (fun j => b2_blk m c t j)
    (fun j => w3_blk m c t j 0) (b3_blk m c t) p q

/-- An index of the output is in point `t`'s block iff each coordinate is in the block's range on its axis. -/
theorem mem_blk (t : Fin cfg0.N) (i : S128x512.Idx) :
    i ∈ ((cfg0.win 10).blk t).view.set ↔ ∀ a : Fin 2, win0_10.index t a * S16x128.size a ≤ (i a).val ∧ (i a).val < win0_10.index t a * S16x128.size a + S16x128.size a := by
  show i ∈ ((View.whole main_v13).slice (win0_10.rect t)).set ↔ _
  rw [View.set_slice_whole, Rect.mem_set_unit]
  exact Iff.rfl

/-- The 32 blocks tile the output: entry (r, s) is in the block (r / 16, s / 128). -/
theorem cover (i : S128x512.Idx) :
    ∃ t : Fin cfg0.N, (cfg0.win 10).flush t = true ∧ i ∈ ((cfg0.win 10).blk t).view.set := by
  have hi0 : (i 0).val < 128 := (i 0).isLt
  have hi1 : (i 1).val < 512 := (i 1).isLt
  obtain ⟨t, ht⟩ := idx_onto ⟨(i 0).val / 16, by omega⟩ ⟨(i 1).val / 128, by omega⟩
  have q0 : win0_10.index t (0 : Fin 2) = (i 0).val / 16 := congrFun ht 0
  have q1 : win0_10.index t (1 : Fin 2) = (i 1).val / 128 := congrFun ht 1
  refine ⟨t, flush0_10 t, ?_⟩
  rw [mem_blk]
  intro a
  match a with
  | ⟨0, _⟩ => show win0_10.index t (0 : Fin 2) * 16 ≤ (i 0).val ∧ (i 0).val < win0_10.index t (0 : Fin 2) * 16 + 16; omega
  | ⟨1, _⟩ => show win0_10.index t (1 : Fin 2) * 128 ≤ (i 1).val ∧ (i 1).val < win0_10.index t (1 : Fin 2) * 128 + 128; omega

/-- THE OUTPUT ARRAY after the region is the table of scores. -/
theorem final (c : Dev nD) : (dats m 0 c).arrAt 10 cfg0.N = tbl m c :=
  (dats m 0 c).arrAt_eq_of_cover 10 (tbl m c) (fun t _ => flushed_eq m c t) cover

end Cert.KernelIdeal.Blocks

end
-- ==== Proof.KernelRun.lean ====
/-
  The kernel program's run, read: after the region the output array is the table of scores (Blocks.lean); the one
  host operation after the region gives the table a trailing axis of extent one, so entry (n, k, 0) of the result
  is the score of the pair (goal n, theorem k); the arguments end unchanged.
-/
import proofs.«123708_j12000138625194_1_alg».proof.Proof.Blocks
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The result array [128, 512, 1] of the program's arguments on core `c`. -/
abbrev res (c : Dev nD) : S128x512x1.Idx → EReal :=
  Cert.PairMlp.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The table with a trailing unit axis is the result array. -/
theorem bcast_tbl (c : Dev nD) :
    broadcastInDim S128x512x1 ![0, 1] bcast_S128x512_S128x512x1_0_1 (Blocks.tbl m c) = res m c := by
  funext i
  obtain ⟨n, k, o, rfl⟩ : ∃ (n : Fin 128) (k : Fin 512) (o : Fin 1), i = ix3 n k o := ⟨i 0, i 1, i 2, eq_ix3 (n0 := 128) (n1 := 512) (n2 := 1) i⟩
  obtain rfl : o = 0 := Subsingleton.elim _ _
  refine (broadcastInDim_apply _ bcast_S128x512_S128x512x1_0_1 (Blocks.tbl m c) (ix3 n k (0 : Fin 1)) (ix2 n k) (fun a => ?_)).trans rfl
  match a with
  | ⟨0, _⟩ => show n.val = if (128 : Nat) = 1 then 0 else n.val; rw [if_neg (by decide)]
  | ⟨1, _⟩ => show k.val = if (512 : Nat) = 1 then 0 else k.val; rw [if_neg (by decide)]

/-- What the lines after the region leave in the result buffer. -/
theorem tail_eq (c : Dev nD) :
    Pipeline.afterTail₀ cfgs (dats m) 0 (V0 m) [hostOps1] c main_v14 = res m c := by
  unfold Pipeline.afterTail₀
  show StableHlo.after hostOps1 _ (Proc.devRef .tc main_v14) = _
  after_results
  refine Eq.trans ?_ (bcast_tbl m c)
  exact congrArg (broadcastInDim S128x512x1 ![0, 1] bcast_S128x512_S128x512x1_0_1)
    ((Pipeline.withArrays_arr spec0 launch0.win.arr_inj c (V0 m c) (fun w => (dats m 0 c).arrAt w (cfgs 0).N) 10).trans
      (Blocks.final m c))

/-- Every weakly fair execution of the kernel program ends with the result buffer at the result array of the
    arguments, and the arguments unchanged. -/
theorem run : θ_run defs (onTc (τ := τ) (main (F := Ideal))) ⟨m, fun _ => 0, ρ⟩ fun r => ∀ c : Dev nD,
      r.2.mem ((c.tc : Thread nD τ).loc main_v14) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.RunValue

end
-- ==== Proof.RefSpec.lean ====
/-
  The reference computes the pair network of Spec.lean: its run's last stage, read one operation at a time,
  is `PairMlp.result` of the eight argument arrays.
-/
import proofs.«123708_j12000138625194_1_alg».proof.Proof.Gen.ReferenceIdeal.Read
import proofs.«123708_j12000138625194_1_alg».proof.Proof.Spec

noncomputable section

open scoped BigOperators

namespace Cert.ReferenceIdeal.RefSpec

open Cert.ReferenceIdeal Cert.ReferenceIdeal.Read Idealize.ShloMosaic Idealize.ShloMosaic.ValueIdx
open Cert.PairMlp (lo mid hi)

/-! ## The joined row

The concatenation along the last axis lays the goal row, the theorem row and their entrywise product end to end:
entries 0 … 1023 come from the first piece, 1024 … 2047 from the second, 2048 … 3071 from the third. -/

/-- The first piece of the joined row is the goal row. -/
private theorem joined_lo (x0 : (⟨S128x1024, .f32⟩ : BufTy).Contents (Elt Ideal)) (x1 : (⟨S512x1024, .f32⟩ : BufTy).Contents (Elt Ideal))
    (n : Fin 128) (p : Fin 512) (e : Fin 1024) :
    val_main_v7 (F := Ideal) x0 x1 (ix3 n p (lo e)) = x0 (ix2 n e) := by
  unfold val_main_v7
  rw [concatenate_apply_piece (2 : Fin S128x512x3072.rank) _ _ (ix3 n p (lo e)) 0 (by show (0 : Nat) < 3; decide) S128x512x1024
    (val_main_v5 (F := Ideal) x0) rfl rfl 0 rfl (ix3 n p e)
    (fun b hb => by
      match b with
      | ⟨0, _⟩ => rfl
      | ⟨1, _⟩ => rfl
      | ⟨2, _⟩ => exact absurd rfl hb)
    (Nat.zero_add _)]
  rw [val_main_v5_apply, val_main_v0_apply]
  refine congrArg x0 (funext fun a => Fin.ext ?_)
  match a with
  | ⟨0, _⟩ => rfl
  | ⟨1, _⟩ => rfl

/-- The second piece of the joined row is the theorem row. -/
private theorem joined_mid (x0 : (⟨S128x1024, .f32⟩ : BufTy).Contents (Elt Ideal)) (x1 : (⟨S512x1024, .f32⟩ : BufTy).Contents (Elt Ideal))
    (n : Fin 128) (p : Fin 512) (e : Fin 1024) :
    val_main_v7 (F := Ideal) x0 x1 (ix3 n p (mid e)) = x1 (ix2 p e) := by
  unfold val_main_v7
  rw [concatenate_apply_piece (2 : Fin S128x512x3072.rank) _ _ (ix3 n p (mid e)) 1 (by show (1 : Nat) < 3; decide) S128x512x1024
    (val_main_v6 (F := Ideal) x1) rfl rfl 1024 rfl (ix3 n p e)
    (fun b hb => by
      match b with
      | ⟨0, _⟩ => rfl
      | ⟨1, _⟩ => rfl
      | ⟨2, _⟩ => exact absurd rfl hb)
    rfl]
  rw [val_main_v6_apply, val_main_v1_apply]
  refine congrArg x1 (funext fun a => Fin.ext ?_)
  match a with
  | ⟨0, _⟩ => rfl
  | ⟨1, _⟩ => rfl

/-- The third piece of the joined row is the entrywise product of the two rows. -/
private theorem joined_hi (x0 : (⟨S128x1024, .f32⟩ : BufTy).Contents (Elt Ideal)) (x1 : (⟨S512x1024, .f32⟩ : BufTy).Contents (Elt Ideal))
    (n : Fin 128) (p : Fin 512) (e : Fin 1024) :
    val_main_v7 (F := Ideal) x0 x1 (ix3 n p (hi e)) = x0 (ix2 n e) * x1 (ix2 p e) := by
  unfold val_main_v7
  rw [concatenate_apply_piece (2 : Fin S128x512x3072.rank) _ _ (ix3 n p (hi e)) 2 (by show (2 : Nat) < 3; decide) S128x512x1024
    (val_main_v4 (F := Ideal) x0 x1) rfl rfl 2048 rfl (ix3 n p e)
    (fun b hb => by
      match b with
      | ⟨0, _⟩ => rfl
      | ⟨1, _⟩ => rfl
      | ⟨2, _⟩ => exact absurd rfl hb)
    rfl]
  rw [val_main_v4_apply, Ideal.mulf_def, val_main_v2_apply, val_main_v0_apply, val_main_v3_apply, val_main_v1_apply]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The three layers

Each layer is a contraction over the last axis of the stage before it, plus a bias row spread over the pairs; the
first two are then compared with zero. Read at the pair (n, p) and the unit's own coordinate, the contraction runs
over the entries of that pair's row and of the unit's column of the weight array. -/

/-- The first layer: the rectified affine image of the joined row, which is the split form of the specification. -/
private theorem first_layer (x0 : (⟨S128x1024, .f32⟩ : BufTy).Contents (Elt Ideal)) (x1 : (⟨S512x1024, .f32⟩ : BufTy).Contents (Elt Ideal))
    (x2 : (⟨S3072x1024, .f32⟩ : BufTy).Contents (Elt Ideal)) (x3 : (⟨S1024, .f32⟩ : BufTy).Contents (Elt Ideal))
    (n : Fin 128) (p : Fin 512) (h : Fin 1024) :
    val_main_v12 (F := Ideal) x0 x1 x2 x3 (ix3 n p h) = Cert.PairMlp.layer1 x0 x1 x2 x3 n p h := by
  have el : ∀ k : Fin 3072, lidx_main_v8 (ix3 n p h) k = ix3 n p k := fun k => funext fun a => Fin.ext (by
    match a with
    | ⟨0, _⟩ => rfl
    | ⟨1, _⟩ => rfl
    | ⟨2, _⟩ => rfl)
  have er : ∀ k : Fin 3072, ridx_main_v8 (ix3 n p h) k = ix2 k h := fun k => funext fun a => Fin.ext (by
    match a with
    | ⟨0, _⟩ => rfl
    | ⟨1, _⟩ => rfl)
  have eb : idx_main_v9 (idx_main_v10 (ix3 n p h)) = ix1 h := funext fun a => Fin.ext (by
    match a with
    | ⟨0, _⟩ => rfl)
  rw [val_main_v12_apply, val_main_v11_apply, val_main_v8_apply, val_main_v10_apply, val_main_v9_apply,
    val_main_call0_v0_apply, val_main_call0_cst_apply, Ideal.ofBits_def, Ideal.ofBits_zero_f32, Ideal.maximumf_def,
    Ideal.addf_def, eb]
  simp only [el, er]
  exact Cert.PairMlp.hid1_of_joined (fun k => val_main_v7 (F := Ideal) x0 x1 (ix3 n p k)) (fun k => x2 (ix2 k h))
    _ _ _ _ _ _ (joined_lo x0 x1 n p) (joined_mid x0 x1 n p) (joined_hi x0 x1 n p)
    (fun _ => rfl) (fun _ => rfl) (fun _ => rfl)

/-- The second layer: the rectified affine image of the first layer's 1024 units. -/
private theorem second_layer (x0 : (⟨S128x1024, .f32⟩ : BufTy).Contents (Elt Ideal)) (x1 : (⟨S512x1024, .f32⟩ : BufTy).Contents (Elt Ideal))
    (x2 : (⟨S3072x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (n : Fin 128) (p : Fin 512) (j : Fin 512) :
    val_main_v17 (F := Ideal) x0 x1 x2 x3 x4 x5 (ix3 n p j) = Cert.PairMlp.layer2 x0 x1 x2 x3 x4 x5 n p j := by
  have el : ∀ k : Fin 1024, lidx_main_v13 (ix3 n p j) k = ix3 n p k := fun k => funext fun a => Fin.ext (by
    match a with
    | ⟨0, _⟩ => rfl
    | ⟨1, _⟩ => rfl
    | ⟨2, _⟩ => rfl)
  have er : ∀ k : Fin 1024, ridx_main_v13 (ix3 n p j) k = ix2 k j := fun k => funext fun a => Fin.ext (by
    match a with
    | ⟨0, _⟩ => rfl
    | ⟨1, _⟩ => rfl)
  have eb : idx_main_v14 (idx_main_v15 (ix3 n p j)) = ix1 j := funext fun a => Fin.ext (by
    match a with
    | ⟨0, _⟩ => rfl)
  rw [val_main_v17_apply, val_main_v16_apply, val_main_v13_apply, val_main_v15_apply, val_main_v14_apply,
    val_main_call1_v0_apply, val_main_call1_cst_apply, Ideal.ofBits_def, Ideal.ofBits_zero_f32, Ideal.maximumf_def,
    Ideal.addf_def, eb]
  simp only [el, er, first_layer]
  rfl

/-- The output: the affine image of the second layer's 512 units. -/
private theorem output (x0 : (⟨S128x1024, .f32⟩ : BufTy).Contents (Elt Ideal)) (x1 : (⟨S512x1024, .f32⟩ : BufTy).Contents (Elt Ideal))
    (x2 : (⟨S3072x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x1, .f32⟩ : BufTy).Contents (Elt Ideal)) (x7 : (⟨S1, .f32⟩ : BufTy).Contents (Elt Ideal))
    (n : Fin 128) (p : Fin 512) (o : Fin 1) :
    val_main_v21 (F := Ideal) x0 x1 x2 x3 x4 x5 x6 x7 (ix3 n p o)
      = Cert.PairMlp.score x0 x1 x2 x3 x4 x5 x6 x7 n p o := by
  have el : ∀ k : Fin 512, lidx_main_v18 (ix3 n p o) k = ix3 n p k := fun k => funext fun a => Fin.ext (by
    match a with
    | ⟨0, _⟩ => rfl
    | ⟨1, _⟩ => rfl
    | ⟨2, _⟩ => rfl)
  have er : ∀ k : Fin 512, ridx_main_v18 (ix3 n p o) k = ix2 k o := fun k => funext fun a => Fin.ext (by
    match a with
    | ⟨0, _⟩ => rfl
    | ⟨1, _⟩ => rfl)
  -- the bias array has the one entry 0, and `o` ranges over one value
  have eb : idx_main_v19 (idx_main_v20 (ix3 n p o)) = ix1 o := funext fun a => Fin.ext (by
    match a with
    | ⟨0, _⟩ => have := o.isLt; show 0 = o.val; omega)
  rw [val_main_v21_apply, val_main_v18_apply, val_main_v20_apply, val_main_v19_apply, Ideal.addf_def, eb]
  simp only [el, er, second_layer]
  rfl

/-! ## The result

Every index of the result array is a triple (n, p, o); at it the last stage is the pair's output. -/

theorem result_eq (x0 : (⟨S128x1024, .f32⟩ : BufTy).Contents (Elt Ideal)) (x1 : (⟨S512x1024, .f32⟩ : BufTy).Contents (Elt Ideal))
    (x2 : (⟨S3072x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x1, .f32⟩ : BufTy).Contents (Elt Ideal)) (x7 : (⟨S1, .f32⟩ : BufTy).Contents (Elt Ideal)) :
    val_main_v21 (F := Ideal) x0 x1 x2 x3 x4 x5 x6 x7 = Cert.PairMlp.result x0 x1 x2 x3 x4 x5 x6 x7 := by
  funext i
  obtain ⟨n, p, o, rfl⟩ : ∃ n p o, i = ix3 n p o := ⟨i 0, i 1, i 2, eq_ix3 i⟩
  exact output x0 x1 x2 x3 x4 x5 x6 x7 n p o

end Cert.ReferenceIdeal.RefSpec

end
-- ==== Proof.lean ====
/-
  The certificate. Both programs score every (goal, theorem) pair by one three-layer network on the joined row
  [g | t | g * t] (Proof/Spec.lean). The kernel never forms the joined row: it multiplies the goal block, the theorem
  block and their product by the three row-bands of W1 and adds the three products, pair by pair, on a grid of
  8 x 4 output blocks; the reference forms the joined row and multiplies once. Over the extended reals a sum over the
  3072 joined entries is the sum of its three parts in any order, the casts to a narrower float format are the
  identity, and a product into a zero accumulator is the plain sum, so both result arrays are `PairMlp.result` of the
  arguments: the kernel's by Proof/Payload.lean (one block entry), Proof/HostIn.lean (the arrays the region finds),
  Proof/Blocks.lean (blocks to the array) and Proof/KernelRun.lean (the trailing unit axis); the reference's by
  Proof/RefSpec.lean over its run read one operation at a time. No entry has to be finite for this, so the
  precondition is not opened. The idealization rewrote nothing, so `preserves` is `True`.
-/
import proofs.«123708_j12000138625194_1_alg».proof.Defs
import proofs.«123708_j12000138625194_1_alg».proof.Proof.Gen.Kernel
import proofs.«123708_j12000138625194_1_alg».proof.Proof.Gen.Kernel.Frame
import proofs.«123708_j12000138625194_1_alg».proof.Proof.Gen.KernelIdeal
import proofs.«123708_j12000138625194_1_alg».proof.Proof.Gen.KernelIdeal.Frame
import proofs.«123708_j12000138625194_1_alg».proof.Proof.Gen.ReferenceIdeal
import proofs.«123708_j12000138625194_1_alg».proof.Proof.Gen.Pre_finite_inputs
import proofs.«123708_j12000138625194_1_alg».proof.Proof.Gen.ReferenceIdeal.Run
import proofs.«123708_j12000138625194_1_alg».proof.Proof.Gen.ReferenceIdeal.Read
import proofs.«123708_j12000138625194_1_alg».proof.Proof.KernelRun
import proofs.«123708_j12000138625194_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result buffer at the same array,
    `PairMlp.result` of the arguments. -/
theorem algebraic : Cert.algebraic_KernelIdeal_ReferenceIdeal := by
  intro m ρ m' ρ' _ hagree
  refine ⟨fun c => Cert.KernelIdeal.RunValue.res m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, Cert.ReferenceIdeal.RefSpec.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
